-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x768 : Shape := ⟨3, ![8, 2048, 768]⟩
abbrev S4 : Shape := ⟨1, ![4]⟩
abbrev S4x3072 : Shape := ⟨2, ![4, 3072]⟩
abbrev S3072 : Shape := ⟨1, ![3072]⟩
abbrev S3072x768 : Shape := ⟨2, ![3072, 768]⟩
abbrev S768 : Shape := ⟨1, ![768]⟩
abbrev S_ : Shape := ⟨0, ![]⟩

class Facts : Prop where
  bcast_S_S8x2048x768 : S_.BroadcastsInDim S8x2048x768 (![] : Fin 0 → Fin S8x2048x768.rank)
  reducesTo_S8x2048x768_S_d0_1_2 : S8x2048x768.ReducesTo [0, 1, 2] S_
  h_S_ : 0 < S_.numel
  bcast_S_S4 : S_.BroadcastsInDim S4 (![] : Fin 0 → Fin S4.rank)
  reducesTo_S4_S_d0 : S4.ReducesTo [0] S_
  bcast_S_S4x3072 : S_.BroadcastsInDim S4x3072 (![] : Fin 0 → Fin S4x3072.rank)
  reducesTo_S4x3072_S_d0_1 : S4x3072.ReducesTo [0, 1] S_
  bcast_S_S3072 : S_.BroadcastsInDim S3072 (![] : Fin 0 → Fin S3072.rank)
  reducesTo_S3072_S_d0 : S3072.ReducesTo [0] S_
  bcast_S_S3072x768 : S_.BroadcastsInDim S3072x768 (![] : Fin 0 → Fin S3072x768.rank)
  reducesTo_S3072x768_S_d0_1 : S3072x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S3072x768 .f32) (main_arg5 : FVec F S768 .f32) (main_v13 : IVec S_ 1) (main_v16 : IVec S3072 1) : IVec S_ 1 :=
  let main_c_5 : IVec S_ 1 := constantI S_ 1 1#1
  let main_v17 : IVec S_ 1 := (fun x v => Host.reduce IntOp.andi x v reducesTo_S3072_S_d0 h_S_) main_v16 main_c_5
  let main_v18 : IVec S_ 1 := andi main_v13 main_v17
  let main_v19 : FVec F S3072x768 .f32 := Host.absf main_arg4
  let main_cst_6 : FVec F S_ .f32 := constant S_ .f32 0x7F800000#32
  let main_v20 : FVec F S3072x768 .f32 := broadcastInDim S3072x768 ![] bcast_S_S3072x768 main_cst_6
  let main_v21 : IVec S3072x768 1 := cmpf .olt main_v19 main_v20
  let main_c_7 : IVec S_ 1 := constantI S_ 1 1#1
  let main_v22 : IVec S_ 1 := (fun x v => Host.reduce IntOp.andi x v reducesTo_S3072x768_S_d0_1 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S8x2048x768 .f32) (main_arg1 : FVec F S4 .f32) (main_arg2 : FVec F S4x3072 .f32) (main_arg3 : FVec F S3072 .f32) (main_arg4 : FVec F S3072x768 .f32) (main_arg5 : FVec F S768 .f32) : IVec S_ 1 :=
  let main_v0 : FVec F S8x2048x768 .f32 := Host.absf main_arg0
  let main_cst : FVec F S_ .f32 := constant S_ .f32 0x7F800000#32
  let main_v1 : FVec F S8x2048x768 .f32 := broadcastInDim S8x2048x768 ![] bcast_S_S8x2048x768 main_cst
  let main_v2 : IVec S8x2048x768 1 := cmpf .olt main_v0 main_v1
  let main_c : IVec S_ 1 := constantI S_ 1 1#1
  let main_v3 : IVec S_ 1 := (fun x v => Host.reduce IntOp.andi x v reducesTo_S8x2048x768_S_d0_1_2 h_S_) main_v2 main_c
  let main_v4 : FVec F S4 .f32 := Host.absf main_arg1
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4x3072 .f32 := Host.absf main_arg2
  let main_cst_2 : FVec F S_ .f32 := constant S_ .f32 0x7F800000#32
  let main_v10 : FVec F S4x3072 .f32 := broadcastInDim S4x3072 ![] bcast_S_S4x3072 main_cst_2
  let main_v11 : IVec S4x3072 1 := cmpf .olt main_v9 main_v10
  let main_c_3 : IVec S_ 1 := constantI S_ 1 1#1
  let main_v12 : IVec S_ 1 := (fun x v => Host.reduce IntOp.andi x v reducesTo_S4x3072_S_d0_1 h_S_) main_v11 main_c_3
  let main_v13 : IVec S_ 1 := andi main_v8 main_v12
  let main_v14 : FVec F S3072 .f32 := Host.absf main_arg3
  let main_cst_4 : FVec F S_ .f32 := constant S_ .f32 0x7F800000#32
  let main_v15 : FVec F S3072 .f32 := broadcastInDim S3072 ![] bcast_S_S3072 main_cst_4
  let main_v16 : IVec S3072 1 := cmpf .olt main_v14 main_v15
  fn_part1 (F := F) main_arg4 main_arg5 main_v13 main_v16
-- ==== Kernel.lean ====
abbrev S8x2048x768 : Shape := ⟨3, ![8, 2048, 768]⟩
abbrev S4 : Shape := ⟨1, ![4]⟩
abbrev S4x3072 : Shape := ⟨2, ![4, 3072]⟩
abbrev S3072 : Shape := ⟨1, ![3072]⟩
abbrev S3072x768 : Shape := ⟨2, ![3072, 768]⟩
abbrev S768 : Shape := ⟨1, ![768]⟩
abbrev S8x2048x4 : Shape := ⟨3, ![8, 2048, 4]⟩
abbrev S16384x4 : Shape := ⟨2, ![16384, 4]⟩
abbrev S16384x768 : Shape := ⟨2, ![16384, 768]⟩
abbrev S512x4 : Shape := ⟨2, ![512, 4]⟩
abbrev S512x768 : Shape := ⟨2, ![512, 768]⟩
abbrev S1x4 : Shape := ⟨2, ![1, 4]⟩
abbrev S512x3072 : Shape := ⟨2, ![512, 3072]⟩
abbrev S1x3072 : Shape := ⟨2, ![1, 3072]⟩
abbrev S1x768 : Shape := ⟨2, ![1, 768]⟩

abbrev nBuf : Space → Nat
  | .hbm => 12
  | .vmem => 9
  | .smem => 0
  | _ => 0

abbrev bufTy : (tb : Table) → Fin (tcTables nBuf tb) → BufTy
  | .hbm, ⟨0, _⟩ => ⟨S8x2048x768, .f32⟩
  | .hbm, ⟨1, _⟩ => ⟨S4, .f32⟩
  | .hbm, ⟨2, _⟩ => ⟨S4x3072, .f32⟩
  | .hbm, ⟨3, _⟩ => ⟨S3072, .f32⟩
  | .hbm, ⟨4, _⟩ => ⟨S3072x768, .f32⟩
  | .hbm, ⟨5, _⟩ => ⟨S768, .f32⟩
  | .hbm, ⟨6, _⟩ => ⟨S8x2048x4, .f32⟩
  | .hbm, ⟨7, _⟩ => ⟨S16384x4, .f32⟩
  | .hbm, ⟨8, _⟩ => ⟨S4x3072, .bf16⟩
  | .hbm, ⟨9, _⟩ => ⟨S3072x768, .bf16⟩
  | .hbm, ⟨10, _⟩ => ⟨S16384x768, .f32⟩
  | .hbm, ⟨11, _⟩ => ⟨S8x2048x768, .f32⟩
  | .local _ .vmem, ⟨0, _⟩ => ⟨S512x4, .f32⟩
  | .local _ .vmem, ⟨1, _⟩ => ⟨S512x4, .f32⟩
  | .local _ .vmem, ⟨2, _⟩ => ⟨S4, .f32⟩
  | .local _ .vmem, ⟨3, _⟩ => ⟨S4x3072, .bf16⟩
  | .local _ .vmem, ⟨4, _⟩ => ⟨S3072, .f32⟩
  | .local _ .vmem, ⟨5, _⟩ => ⟨S3072x768, .bf16⟩
  | .local _ .vmem, ⟨6, _⟩ => ⟨S768, .f32⟩
  | .local _ .vmem, ⟨7, _⟩ => ⟨S512x768, .f32⟩
  | .local _ .vmem, ⟨8, _⟩ => ⟨S512x768, .f32⟩
  | _, _ => ⟨S8x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8x2048x768_S8x2048x4_0_0_0 : S8x2048x768.Slices ![0, 0, 0] S8x2048x4
  shapeCasts_S8x2048x4_S16384x4 : S8x2048x4.ShapeCasts S16384x4
  bitsLt_bf16_f32 : FTy.bits .bf16 < FTy.bits .f32
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S4_S4_0 : ∀ a, (![0] : Fin 1 → Nat) a + S4.size a ≤ S4.size a
  h_S4 : 0 < S4.numel
  shapeCasts_S4_S1x4 : S4.ShapeCasts S1x4
  broadcasts_S1x4_S512x4 : S1x4.Broadcasts S512x4
  inb_S4x3072_S4x3072_0_0 : ∀ a, (![0, 0] : Fin 2 → Nat) a + S4x3072.size a ≤ S4x3072.size a
  h_S4x3072 : 0 < S4x3072.numel
  shapeCasts_S4x3072_S4x3072 : S4x3072.ShapeCasts S4x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  inb_S512x768_S512x768_0_0 : ∀ a, (![0, 0] : Fin 2 → Nat) a + S512x768.size a ≤ S512x768.size a
  h_S512x768 : 0 < S512x768.numel
  shapeCasts_S16384x768_S8x2048x768 : S16384x768.ShapeCasts S8x2048x768
  dot_S512x4_S4x3072_S512x3072_1_0_0_1_n_n_wf : DotDims.WF S512x4 S4x3072 S512x3072 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4.size a ≤ S16384x4.size a
  hwx0_0 : ∀ i : grid0.Coords, EltTy.bits .f32 = 32 ∨ (Rect.block (s := S16384x4) S512x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4.size a ≤ S4.size a
  hwx0_1 : ∀ i : grid0.Coords, EltTy.bits .f32 = 32 ∨ (Rect.block (s := S4) S4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x3072.size a ≤ S4x3072.size a
  hwx0_2 : ∀ i : grid0.Coords, EltTy.bits .bf16 = 32 ∨ (Rect.block (s := S4x3072) S4x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072.size a ≤ S3072.size a
  hwx0_3 : ∀ i : grid0.Coords, EltTy.bits .f32 = 32 ∨ (Rect.block (s := S3072) S3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3072x768.size a ≤ S3072x768.size a
  hwx0_4 : ∀ i : grid0.Coords, EltTy.bits .bf16 = 32 ∨ (Rect.block (s := S3072x768) S3072x768.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768.size a ≤ S768.size a
  hwx0_5 : ∀ i : grid0.Coords, EltTy.bits .f32 = 32 ∨ (Rect.block (s := S768) S768.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x768.size a ≤ S16384x768.size a
  hwx0_6 : ∀ i : grid0.Coords, EltTy.bits .f32 = 32 ∨ (Rect.block (s := S16384x768) S512x768.size (cc0_transform_6 i) (hinb0_6 i)).WholeWords (EltTy.packing .f32)

variable [Facts₀]

def dot_S512x4_S4x3072_S512x3072_1_0_0_1_n_n : DotDims S512x4 S4x3072 S512x3072 where
  lhsContracting := [1]
  rhsContracting := [0]
  lhsNonContracting := [0]
  rhsNonContracting := [1]
  lhsBatch := []
  rhsBatch := []
  wf := dot_S512x4_S4x3072_S512x3072_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v1) S512x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S3072x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x768 : Shape := ⟨3, ![8, 2048, 768]⟩
abbrev S4 : Shape := ⟨1, ![4]⟩
abbrev S4x3072 : Shape := ⟨2, ![4, 3072]⟩
abbrev S3072 : Shape := ⟨1, ![3072]⟩
abbrev S3072x768 : Shape := ⟨2, ![3072, 768]⟩
abbrev S768 : Shape := ⟨1, ![768]⟩
abbrev S8x2048x4 : Shape := ⟨3, ![8, 2048, 4]⟩
abbrev S1x1x4 : Shape := ⟨3, ![1, 1, 4]⟩
abbrev S8x2048x3072 : Shape := ⟨3, ![8, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x768, .f32⟩
  | .hbm, ⟨1, _⟩ => ⟨S4, .f32⟩
  | .hbm, ⟨2, _⟩ => ⟨S4x3072, .f32⟩
  | .hbm, ⟨3, _⟩ => ⟨S3072, .f32⟩
  | .hbm, ⟨4, _⟩ => ⟨S3072x768, .f32⟩
  | .hbm, ⟨5, _⟩ => ⟨S768, .f32⟩
  | .hbm, ⟨6, _⟩ => ⟨S8x2048x4, .f32⟩
  | .hbm, ⟨7, _⟩ => ⟨S8x2048x4, .f32⟩
  | .hbm, ⟨8, _⟩ => ⟨S4, .f32⟩
  | .hbm, ⟨9, _⟩ => ⟨S1x1x4, .f32⟩
  | .hbm, ⟨10, _⟩ => ⟨S8x2048x4, .f32⟩
  | .hbm, ⟨11, _⟩ => ⟨S8x2048x4, .f32⟩
  | .hbm, ⟨12, _⟩ => ⟨S8x2048x3072, .f32⟩
  | .hbm, ⟨13, _⟩ => ⟨S1x1x3072, .f32⟩
  | .hbm, ⟨14, _⟩ => ⟨S8x2048x3072, .f32⟩
  | .hbm, ⟨15, _⟩ => ⟨S8x2048x3072, .f32⟩
  | .hbm, ⟨16, _⟩ => ⟨S_, .f32⟩
  | .hbm, ⟨17, _⟩ => ⟨S8x2048x3072, .f32⟩
  | .hbm, ⟨18, _⟩ => ⟨S8x2048x3072, .f32⟩
  | .hbm, ⟨19, _⟩ => ⟨S8x2048x768, .f32⟩
  | .hbm, ⟨20, _⟩ => ⟨S1x1x768, .f32⟩
  | .hbm, ⟨21, _⟩ => ⟨S8x2048x768, .f32⟩
  | .hbm, ⟨22, _⟩ => ⟨S8x2048x768, .f32⟩
  | _, _ => ⟨S8x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  slices_S8x2048x768_S8x2048x4_0_0_0 : S8x2048x768.Slices ![0, 0, 0] S8x2048x4
  bcast_S4_S1x1x4_2 : S4.BroadcastsInDim S1x1x4 (![2] : Fin 1 → Fin S1x1x4.rank)
  bcast_S1x1x4_S8x2048x4_0_1_2 : S1x1x4.BroadcastsInDim S8x2048x4 (![0, 1, 2] : Fin 3 → Fin S8x2048x4.rank)
  bcast_S3072_S1x1x3072_2 : S3072.BroadcastsInDim S1x1x3072 (![2] : Fin 1 → Fin S1x1x3072.rank)
  bcast_S1x1x3072_S8x2048x3072_0_1_2 : S1x1x3072.BroadcastsInDim S8x2048x3072 (![0, 1, 2] : Fin 3 → Fin S8x2048x3072.rank)
  bcast_S_S8x2048x3072 : S_.BroadcastsInDim S8x2048x3072 (![] : Fin 0 → Fin S8x2048x3072.rank)
  bcast_S768_S1x1x768_2 : S768.BroadcastsInDim S1x1x768 (![2] : Fin 1 → Fin S1x1x768.rank)
  bcast_S1x1x768_S8x2048x768_0_1_2 : S1x1x768.BroadcastsInDim S8x2048x768 (![0, 1, 2] : Fin 3 → Fin S8x2048x768.rank)
  dot_S8x2048x4_S4x3072_S8x2048x3072_2_0_01_1_n_n_wf : DotDims.WF S8x2048x4 S4x3072 S8x2048x3072 [2] [0] [0, 1] [1] [] []
  dot_S8x2048x3072_S3072x768_S8x2048x768_2_0_01_1_n_n_wf : DotDims.WF S8x2048x3072 S3072x768 S8x2048x768 [2] [0] [0, 1] [1] [] []

variable [Facts₀]

def dot_S8x2048x4_S4x3072_S8x2048x3072_2_0_01_1_n_n : DotDims S8x2048x4 S4x3072 S8x2048x3072 where
  lhsContracting := [2]
  rhsContracting := [0]
  lhsNonContracting := [0, 1]
  rhsNonContracting := [1]
  lhsBatch := []
  rhsBatch := []
  wf := dot_S8x2048x4_S4x3072_S8x2048x3072_2_0_01_1_n_n_wf
def dot_S8x2048x3072_S3072x768_S8x2048x768_2_0_01_1_n_n : DotDims S8x2048x3072 S3072x768 S8x2048x768 where
  lhsContracting := [2]
  rhsContracting := [0]
  lhsNonContracting := [0, 1]
  rhsNonContracting := [1]
  lhsBatch := []
  rhsBatch := []
  wf := dot_S8x2048x3072_S3072x768_S8x2048x768_2_0_01_1_n_n_wf

class Facts : Prop extends Facts₀ where

variable [Facts]
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.Spec.lean ====
/-
  The feed-forward block with a quantum feature layer, one token at a time, over the extended reals.

  A token carries four angles  a_0 … a_3  (the first four channels of its input row). Wire q of the circuit
  RX(a_q) then RY(θ_q) on |0⟩ measures  ⟨Z⟩ = cos a_q · cos θ_q  (`feature`). The four expectations feed a two-layer
  perceptron: 4 → 3072 with bias and rectifier, then 3072 → 768 with bias (`token`), each layer the affine map and
  rectifier of one row. The whole result (`whole`) is that row function applied to every token (b, t) of the
  [8, 2048, 768] input by itself: nothing couples two tokens.
-/
import proofs.«113039_j65481071399892_1_alg».proof.Proof.LibDense

noncomputable section

open scoped BigOperators

namespace Cert.Spec

open Idealize.ShloMosaic Idealize.ShloMosaic.ValueIdx Cert.Dense

/-- The measured expectations of one token: wire q gives cos a_q · cos θ_q. -/
def feature (θ : FVec Ideal ⟨1, ![4]⟩ .f32) (a : Fin 4 → EReal) : Fin 4 → EReal :=
  fun q => Ideal.cos (a q) * Ideal.cos (θ (ix1 q))

/-- One token's output row: the expectations through the two dense layers, the rectifier between them. -/
def token (θ : FVec Ideal ⟨1, ![4]⟩ .f32) (W1 : FVec Ideal ⟨2, ![4, 3072]⟩ .f32) (b1 : FVec Ideal ⟨1, ![3072]⟩ .f32)
    (W2 : FVec Ideal ⟨2, ![3072, 768]⟩ .f32) (b2 : FVec Ideal ⟨1, ![768]⟩ .f32) (a : Fin 4 → EReal) : Fin 768 → EReal :=
  affine W2 b2 (relu (affine W1 b1 (feature θ a)))

/-- A channel number below 4 is a channel number below 768. -/
def chan (q : Fin 4) : Fin 768 := ⟨q.val, Nat.lt_of_lt_of_le q.isLt (by decide)⟩

/-- The angles of token (b, t): the first four channels of its row of x. -/
def angles (x : FVec Ideal ⟨3, ![8, 2048, 768]⟩ .f32) (b : Fin 8) (t : Fin 2048) : Fin 4 → EReal :=
  fun q => x (ix3 b t (chan q))

/-- The whole result: entry (b, t, e) is entry e of token (b, t)'s output row. -/
def whole (x : FVec Ideal ⟨3, ![8, 2048, 768]⟩ .f32) (θ : FVec Ideal ⟨1, ![4]⟩ .f32)
    (W1 : FVec Ideal ⟨2, ![4, 3072]⟩ .f32) (b1 : FVec Ideal ⟨1, ![3072]⟩ .f32)
    (W2 : FVec Ideal ⟨2, ![3072, 768]⟩ .f32) (b2 : FVec Ideal ⟨1, ![768]⟩ .f32) :
    FVec Ideal ⟨3, ![8, 2048, 768]⟩ .f32 :=
  fun i => token θ W1 b1 W2 b2 (angles x (i 0) (i 1)) (i 2)

end Cert.Spec

end
-- ==== Proof.RefSpec.lean ====
/-
  The reference program computes the token function of Spec.lean at every token.

  Read stage by stage at an entry (b, t, ·): the product of the two cosines at (b, t, q) is the token's expectation on
  wire q; the first general product contracts the wire axis, so with the bias and the maximum with zero it is the first
  layer's rectified row; the second contracts the 3072 hidden units, and with its bias it is the output row. The
  stages' composed index functions are identified with plain coordinates once, below.
-/
import proofs.«113039_j65481071399892_1_alg».proof.Proof.Gen.ReferenceIdeal.Read
import proofs.«113039_j65481071399892_1_alg».proof.Proof.Spec

noncomputable section

open scoped BigOperators

namespace Cert.RefSpec

open Idealize.ShloMosaic Idealize.ShloMosaic.ValueIdx Cert.Dense Cert.Spec
open Cert.ReferenceIdeal Cert.ReferenceIdeal.Read

/-! ## The stages' index functions in coordinates -/

theorem idx_angle (b : Fin 8) (t : Fin 2048) (q : Fin 4) : idx_main_v0 (ix3 b t q) = ix3 b t (chan q) :=
  funext fun a => match a with | ⟨0, _⟩ => rfl | ⟨1, _⟩ => rfl | ⟨2, _⟩ => rfl

theorem idx_theta (b : Fin 8) (t : Fin 2048) (q : Fin 4) : idx_main_v3 (idx_main_v4 (ix3 b t q)) = ix1 q :=
  funext fun a => match a with | ⟨0, _⟩ => rfl

theorem idx_l1 (b : Fin 8) (t : Fin 2048) (f : Fin 3072) (k : Fin 4) : lidx_main_v6 (ix3 b t f) k = ix3 b t k :=
  funext fun a => match a with | ⟨0, _⟩ => rfl | ⟨1, _⟩ => rfl | ⟨2, _⟩ => rfl

theorem idx_r1 (b : Fin 8) (t : Fin 2048) (f : Fin 3072) (k : Fin 4) : ridx_main_v6 (ix3 b t f) k = ix2 k f :=
  funext fun a => match a with | ⟨0, _⟩ => rfl | ⟨1, _⟩ => rfl

theorem idx_b1 (b : Fin 8) (t : Fin 2048) (f : Fin 3072) : idx_main_v7 (idx_main_v8 (ix3 b t f)) = ix1 f :=
  funext fun a => match a with | ⟨0, _⟩ => rfl

theorem idx_l2 (b : Fin 8) (t : Fin 2048) (e : Fin 768) (k : Fin 3072) : lidx_main_v11 (ix3 b t e) k = ix3 b t k :=
  funext fun a => match a with | ⟨0, _⟩ => rfl | ⟨1, _⟩ => rfl | ⟨2, _⟩ => rfl

theorem idx_r2 (b : Fin 8) (t : Fin 2048) (e : Fin 768) (k : Fin 3072) : ridx_main_v11 (ix3 b t e) k = ix2 k e :=
  funext fun a => match a with | ⟨0, _⟩ => rfl | ⟨1, _⟩ => rfl

theorem idx_b2 (b : Fin 8) (t : Fin 2048) (e : Fin 768) : idx_main_v12 (idx_main_v13 (ix3 b t e)) = ix1 e :=
  funext fun a => match a with | ⟨0, _⟩ => rfl

/-! ## The stages at a token -/

variable (x0 : FVec Ideal ⟨3, ![8, 2048, 768]⟩ .f32) (x1 : FVec Ideal ⟨1, ![4]⟩ .f32)
  (x2 : FVec Ideal ⟨2, ![4, 3072]⟩ .f32) (x3 : FVec Ideal ⟨1, ![3072]⟩ .f32)
  (x4 : FVec Ideal ⟨2, ![3072, 768]⟩ .f32) (x5 : FVec Ideal ⟨1, ![768]⟩ .f32)

/-- The product of cosines at (b, t, q) is token (b, t)'s expectation on wire q. -/
theorem stage_feature (b : Fin 8) (t : Fin 2048) (q : Fin 4) :
    val_main_v5 (F := Ideal) x0 x1 (ix3 b t q) = feature x1 (angles x0 b t) q := by
  rw [val_main_v5_apply, val_main_v1_apply, val_main_v0_apply, val_main_v4_apply, val_main_v3_apply, val_main_v2_apply,
    idx_angle, idx_theta]
  rfl

/-- The rectified first layer at (b, t, f). -/
theorem stage_hidden (b : Fin 8) (t : Fin 2048) (f : Fin 3072) :
    val_main_v10 (F := Ideal) x0 x1 x2 x3 (ix3 b t f) = relu (affine x2 x3 (feature x1 (angles x0 b t))) f := by
  rw [val_main_v10_apply, val_main_v9_apply, val_main_v6_apply, val_main_v8_apply, val_main_v7_apply,
    val_main_call0_v0_apply, val_main_call0_cst_apply, idx_b1]
  have hs : ∑ k : Fin 4, val_main_v5 (F := Ideal) x0 x1 (lidx_main_v6 (ix3 b t f) k) * x2 (ridx_main_v6 (ix3 b t f) k)
      = ∑ k : Fin 4, feature x1 (angles x0 b t) k * x2 (ix2 k f) :=
    Finset.sum_congr rfl fun k _ => by rw [idx_l1, idx_r1, stage_feature]
  rw [hs]
  show max (_ + _) (Ideal.ofBits .f32 0x00000000#32) = max (_ + _) 0
  rw [Ideal.ofBits_zero_f32]

/-- The output at (b, t, e). -/
theorem stage_out (b : Fin 8) (t : Fin 2048) (e : Fin 768) :
    val_main_v14 (F := Ideal) x0 x1 x2 x3 x4 x5 (ix3 b t e) = token x1 x2 x3 x4 x5 (angles x0 b t) e := by
  rw [val_main_v14_apply, val_main_v11_apply, val_main_v13_apply, val_main_v12_apply, idx_b2]
  have hs : ∑ k : Fin 3072, val_main_v10 (F := Ideal) x0 x1 x2 x3 (lidx_main_v11 (ix3 b t e) k) * x4 (ridx_main_v11 (ix3 b t e) k)
      = ∑ k : Fin 3072, relu (affine x2 x3 (feature x1 (angles x0 b t))) k * x4 (ix2 k e) :=
    Finset.sum_congr rfl fun k _ => by rw [idx_l2, idx_r2, stage_hidden]
  rw [hs]
  rfl

/-- The reference's result is the token function at every token. -/
theorem reference_eq : val_main_v14 (F := Ideal) x0 x1 x2 x3 x4 x5 = whole x0 x1 x2 x3 x4 x5 := by
  funext i
  rw [eq_ix3 i]
  exact stage_out x0 x1 x2 x3 x4 x5 (i 0) (i 1) (i 2)

end Cert.RefSpec

end
-- ==== Proof.KernelRow.lean ====
/-
  The kernel body's stored value, read at an entry of its 512-row block.

  The body loads a block of 512 rows of angles, the four RY angles θ, both weight matrices and both biases, and stores
  one [512, 768] value. Read at (p, e) that value is entry e of the token function of Spec.lean at row p's angles:
  the product of cosines at (p, q) is the row's expectation on wire q (`feature_entry`: θ's cosines are laid out as one
  row and stretched over the 512 rows); the first matrix product into zeros, the bias row and the maximum with zero are
  the rectified first layer at (p, f) (`hidden_entry`); the second product and bias are the output row
  (`payload_entry`). Narrowing to bf16 is the identity on the extended reals, and a cast to the same shape changes
  nothing. The body's intermediate vectors are named once (`featVec`, `hidVec`) so that each step speaks of one layer.
-/
import proofs.«113039_j65481071399892_1_alg».proof.Proof.Gen.KernelIdeal.Skeleton
import proofs.«113039_j65481071399892_1_alg».proof.Proof.Spec
import Idealize.ShloMosaic.Lib.ValueLayout

noncomputable section

open scoped BigOperators

namespace Cert.KernelRow

open Idealize.ShloMosaic Idealize.ShloMosaic.ValueIdx Cert.Dense Cert.Spec
open Cert.KernelIdeal Cert.KernelIdeal.Gen

variable (x0 : FVec Ideal S512x4 .f32) (x1 : FVec Ideal S4 .f32) (x2 : FVec Ideal S4x3072 .bf16)
  (x3 : FVec Ideal S3072 .f32) (x4 : FVec Ideal S3072x768 .bf16) (x5 : FVec Ideal S768 .f32)

/-- Row p of a block of angles. -/
def blockAngles (p : Fin 512) : Fin 4 → EReal := fun q => x0 (ix2 p q)

/-- The block's expectations, narrowed: cos of the angles times the row of cos θ stretched over the rows. -/
def featVec : FVec Ideal S512x4 .bf16 :=
  truncf .bf16 (mulf (cos (shapeCast S512x4 x0 shapeCasts_S512x4_S512x4))
    (broadcastTo S512x4 (shapeCast S1x4 (cos x1) shapeCasts_S4_S1x4) broadcasts_S1x4_S512x4)) bitsLt_bf16_f32

/-- The block's rectified first layer, narrowed. -/
def hidVec : FVec Ideal S512x3072 .bf16 :=
  truncf .bf16 (maximumf (addf (matmul dot_S512x4_S4x3072_S512x3072_1_0_0_1_n_n none (featVec x0 x1)
        (shapeCast S4x3072 x2 shapeCasts_S4x3072_S4x3072) (constant S512x3072 .f32 0x00000000#32))
      (broadcastTo S512x3072 (shapeCast S1x3072 x3 shapeCasts_S3072_S1x3072) broadcasts_S1x3072_S512x3072))
    (broadcast S512x3072 (Scalar.ofBits (F := Ideal) .f32 0x00000000#32))) bitsLt_bf16_f32

/-- The stored value is the second layer over those. -/
theorem payload_eq : k0_pay1 (F := Ideal) x0 x1 x2 x3 x4 x5
    = addf (matmul dot_S512x3072_S3072x768_S512x768_1_0_0_1_n_n none (hidVec x0 x1 x2 x3)
        (shapeCast S3072x768 x4 shapeCasts_S3072x768_S3072x768) (constant S512x768 .f32 0x00000000#32))
      (broadcastTo S512x768 (shapeCast S1x768 x5 shapeCasts_S768_S1x768) broadcasts_S1x768_S512x768) := rfl

/-- The expectation of row p on wire q. -/
theorem feature_entry (p : Fin 512) (q : Fin 4) :
    featVec x0 x1 (ix2 p q) = feature x1 (blockAngles x0 p) q := by
  unfold featVec
  rw [truncf_apply, mulf_apply, shapeCast_self, broadcastTo_1b_ab_apply, shapeCast_a_1a_apply]
  rfl

/-- The rectified first layer of row p at hidden unit f. -/
theorem hidden_entry (p : Fin 512) (f : Fin 3072) :
    hidVec x0 x1 x2 x3 (ix2 p f) = relu (affine x2 x3 (feature x1 (blockAngles x0 p))) f := by
  unfold hidVec
  rw [truncf_apply, kernel_relu_apply, addf_apply, matmul_zero_plain_apply _ rfl rfl rfl rfl rfl rfl,
    broadcastTo_1b_ab_apply, shapeCast_a_1a_apply, shapeCast_self]
  have hs : ∑ k : Fin 4, featVec x0 x1 (ix2 p k) * x2 (ix2 k f)
      = ∑ k : Fin 4, feature x1 (blockAngles x0 p) k * x2 (ix2 k f) :=
    Finset.sum_congr rfl fun k _ => by rw [feature_entry]
  rw [hs]
  rfl

/-- The stored value at (p, e) is entry e of the token function at row p's angles. -/
theorem payload_entry (p : Fin 512) (e : Fin 768) :
    k0_pay1 (F := Ideal) x0 x1 x2 x3 x4 x5 (ix2 p e) = token x1 x2 x3 x4 x5 (blockAngles x0 p) e := by
  rw [payload_eq, addf_apply, matmul_zero_plain_apply _ rfl rfl rfl rfl rfl rfl,
    broadcastTo_1b_ab_apply, shapeCast_a_1a_apply, shapeCast_self]
  have hs : ∑ k : Fin 3072, hidVec x0 x1 x2 x3 (ix2 p k) * x4 (ix2 k e)
      = ∑ k : Fin 3072, relu (affine x2 x3 (feature x1 (blockAngles x0 p))) k * x4 (ix2 k e) :=
    Finset.sum_congr rfl fun k _ => by rw [hidden_entry]
  rw [hs]
  rfl

end Cert.KernelRow

end
-- ==== Proof.KernelBlocks.lean ====
/-
  From the 32 row blocks to the region's whole result array.

  The region's grid has 32 points. Point t reads rows 512·t … 512·t + 511 of the [16384, 4] array of angles and the whole
  of θ, of both weight matrices and of both biases (their block index is 0 at every point), and writes rows
  512·t … 512·t + 511 of the [16384, 768] result. By KernelRow.lean the stored value at (p, e) is the token function at
  row p of the block, that is at row 512·t + p of the angles: so what point t writes back is block t of ONE function of
  the arrays as the region finds them (`rows`: row r of the result is the token function of row r of the angles). Row r
  lies in the block of point r / 512, so the 32 blocks cover the array, which therefore ends holding `rows`.
-/
import proofs.«113039_j65481071399892_1_alg».proof.Proof.Gen.KernelIdeal.Frame
import proofs.«113039_j65481071399892_1_alg».proof.Proof.KernelRow
import Idealize.ShloMosaic.Lib.Pipeline.Value

noncomputable section

open scoped BigOperators

namespace Cert.KernelBlocks

open Idealize.ShloMosaic Idealize.ShloMosaic.TcCoe Idealize.SL.Sem Idealize.ShloMosaic.ValueIdx
open Idealize.ShloMosaic.Pipeline (Dat)
open Cert.KernelIdeal Cert.KernelIdeal.Gen Cert.Spec Cert.KernelRow

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a <;> rfl

/-! ## The arrays as the region finds them, at their literal types -/

abbrev angArr (c : Dev nD) : FVec Ideal S16384x4 .f32 := V m c main_v1
abbrev thArr (c : Dev nD) : FVec Ideal S4 .f32 := V m c main_arg1
abbrev w1Arr (c : Dev nD) : FVec Ideal S4x3072 .bf16 := V m c main_v2
abbrev b1Arr (c : Dev nD) : FVec Ideal S3072 .f32 := V m c main_arg3
abbrev w2Arr (c : Dev nD) : FVec Ideal S3072x768 .bf16 := V m c main_v3
abbrev b2Arr (c : Dev nD) : FVec Ideal S768 .f32 := V m c main_arg5

/-- Row r of the [16384, 4] array of angles. -/
def rowAngles (c : Dev nD) (r : Fin 16384) : Fin 4 → EReal := fun q => angArr m c (ix2 r q)

/-- The region's result: row r is the token function of row r of the angles. -/
def rows (c : Dev nD) : FVec Ideal S16384x768 .f32 :=
  fun j => token (thArr m c) (w1Arr m c) (b1Arr m c) (w2Arr m c) (b2Arr m c) (rowAngles m c (j 0)) (j 1)

/-! ## The index maps over the grid -/

/-- The angles' and the result's block index is the point's number; every other window stays at block 0. -/
theorem idx_facts : ∀ t : Fin cfg0.N,
    win0_0.index t (0 : Fin 2) = t.val ∧ win0_0.index t (1 : Fin 2) = 0
    ∧ win0_1.index t (0 : Fin 1) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

theorem point_lt (t : Fin cfg0.N) : t.val < 32 := Nat.lt_of_lt_of_eq t.isLt N_0

/-- Row p of point t's block is row 512·t + p of the array. -/
def rowOf (t : Fin cfg0.N) (p : Fin 512) : Fin 16384 :=
  ⟨512 * t.val + p.val, by have := point_lt t; have := p.isLt; omega⟩

/-! ## Each input block, read off its array -/

theorem blk_theta (c : Dev nD) (t : Fin cfg0.N) : (iblk m c 1 t : FVec Ideal S4 .f32) = thArr m c := by
  obtain ⟨-, -, e, -⟩ := idx_facts t
  funext y
  unfold iblk
  rw [View.read_apply]
  show V m c main_arg1 _ = V m c main_arg1 _
  congr 1
  funext a
  apply Fin.ext
  match a with
  | ⟨0, _⟩ => show win0_1.index t (0 : Fin 1) * 4 + 1 * (y 0).val = (y 0).val; omega

theorem blk_w1 (c : Dev nD) (t : Fin cfg0.N) : (iblk m c 2 t : FVec Ideal S4x3072 .bf16) = w1Arr m c := by
  obtain ⟨-, -, -, e0, e1, -⟩ := idx_facts t
  funext y
  unfold iblk
  rw [View.read_apply]
  show V m c main_v2 _ = V m c main_v2 _
  congr 1
  funext a
  apply Fin.ext
  match a with
  | ⟨0, _⟩ => show win0_2.index t (0 : Fin 2) * 4 + 1 * (y 0).val = (y 0).val; omega
  | ⟨1, _⟩ => show win0_2.index t (1 : Fin 2) * 3072 + 1 * (y 1).val = (y 1).val; omega

theorem blk_b1 (c : Dev nD) (t : Fin cfg0.N) : (iblk m c 3 t : FVec Ideal S3072 .f32) = b1Arr m c := by
  obtain ⟨-, -, -, -, -, e, -⟩ := idx_facts t
  funext y
  unfold iblk
  rw [View.read_apply]
  show V m c main_arg3 _ = V m c main_arg3 _
  congr 1
  funext a
  apply Fin.ext
  match a with
  | ⟨0, _⟩ => show win0_3.index t (0 : Fin 1) * 3072 + 1 * (y 0).val = (y 0).val; omega

theorem blk_w2 (c : Dev nD) (t : Fin cfg0.N) : (iblk m c 4 t : FVec Ideal S3072x768 .bf16) = w2Arr m c := by
  obtain ⟨-, -, -, -, -, -, e0, e1, -⟩ := idx_facts t
  funext y
  unfold iblk
  rw [View.read_apply]
  show V m c main_v3 _ = V m c main_v3 _
  congr 1
  funext a
  apply Fin.ext
  match a with
  | ⟨0, _⟩ => show win0_4.index t (0 : Fin 2) * 3072 + 1 * (y 0).val = (y 0).val; omega
  | ⟨1, _⟩ => show win0_4.index t (1 : Fin 2) * 768 + 1 * (y 1).val = (y 1).val; omega

theorem blk_b2 (c : Dev nD) (t : Fin cfg0.N) : (iblk m c 5 t : FVec Ideal S768 .f32) = b2Arr m c := by
  obtain ⟨-, -, -, -, -, -, -, -, e, -⟩ := idx_facts t
  funext y
  unfold iblk
  rw [View.read_apply]
  show V m c main_arg5 _ = V m c main_arg5 _
  congr 1
  funext a
  apply Fin.ext
  match a with
  | ⟨0, _⟩ => show win0_5.index t (0 : Fin 1) * 768 + 1 * (y 0).val = (y 0).val; omega

/-- Row p of point t's block of angles is row 512·t + p of the array. -/
theorem blk_angles (c : Dev nD) (t : Fin cfg0.N) (p : Fin 512) :
    blockAngles (iblk m c 0 t : FVec Ideal S512x4 .f32) p = rowAngles m c (rowOf t p) := by
  obtain ⟨e0, e1, -⟩ := idx_facts t
  funext q
  unfold blockAngles rowAngles iblk
  rw [View.read_apply]
  show V m c main_v1 _ = V m c main_v1 _
  congr 1
  funext a
  apply Fin.ext
  match a with
  | ⟨0, _⟩ => show win0_0.index t (0 : Fin 2) * 512 + 1 * p.val = 512 * t.val + p.val; omega
  | ⟨1, _⟩ => show win0_0.index t (1 : Fin 2) * 4 + 1 * q.val = q.val; omega

/-! ## What a point writes back, and the array after the run -/

/-- The stored value of point t at (p, e) is the result's function at row 512·t + p. -/
theorem entry_eq (c : Dev nD) (t : Fin cfg0.N) (p : Fin 512) (e : Fin 768) :
    k0_pay1 (F := Ideal) (iblk m c 0 t) (iblk m c 1 t) (iblk m c 2 t) (iblk m c 3 t) (iblk m c 4 t) (iblk m c 5 t) (ix2 p e)
      = rows m c (ix2 (rowOf t p) e) := by
  refine (payload_entry (iblk m c 0 t) (iblk m c 1 t) (iblk m c 2 t) (iblk m c 3 t) (iblk m c 4 t) (iblk m c 5 t) p e).trans ?_
  rw [blk_theta m c t, blk_w1 m c t, blk_b1 m c t, blk_w2 m c t, blk_b2 m c t, blk_angles m c t p]
  rfl

/-- WHAT POINT t WRITES BACK is block t of `rows`. -/
theorem flushed_eq (c : Dev nD) (t : Fin cfg0.N) :
    (dats m 0 c).flushed 6 t = ((cfg0.win 6).blk t).view.read (Elt Ideal) (rows m c) := by
  show (cfg0.win 6).cut (grid0.coords t) ((dats m 0 c).after 6 t) = _
  rw [after0_6]
  unfold out0_6
  rw [View.canon_unit_zero hz2]
  simp only [View.ld_unit_zero (S := S512x4) hz2, View.ld_unit_zero (S := S4) hz1, View.ld_unit_zero (S := S4x3072) hz2,
    View.ld_unit_zero (S := S3072) hz1, View.ld_unit_zero (S := S3072x768) hz2, View.ld_unit_zero (S := S768) hz1]
  obtain ⟨-, -, -, -, -, -, -, -, -, e0, e1⟩ := idx_facts t
  funext j
  show k0_pay1 (F := Ideal) (iblk m c 0 t) (iblk m c 1 t) (iblk m c 2 t) (iblk m c 3 t) (iblk m c 4 t) (iblk m c 5 t) j
    = rows m c (((cfg0.win 6).blk t).view.emb j)
  have hj : (j : S512x768.Idx) = ix2 (j 0) (j 1) := eq_ix2 j
  refine (congrArg (k0_pay1 (F := Ideal) (iblk m c 0 t) (iblk m c 1 t) (iblk m c 2 t) (iblk m c 3 t) (iblk m c 4 t) (iblk m c 5 t)) hj).trans ?_
  refine (entry_eq m c t (j 0) (j 1)).trans ?_
  refine congrArg (rows m c) (funext fun a => Fin.ext ?_)
  -- row 512·t + p, column e of the array is entry (p, e) of block t
  match a with
  | ⟨0, _⟩ => show 512 * t.val + (j 0).val = win0_6.index t (0 : Fin 2) * 512 + 1 * (j 0).val; omega
  | ⟨1, _⟩ => show (j 1).val = win0_6.index t (1 : Fin 2) * 768 + 1 * (j 1).val; omega

/-- An index of the result array is in point t's block iff each coordinate is in the block's range on its axis. -/
theorem mem_blk (t : Fin cfg0.N) (i : S16384x768.Idx) :
    i ∈ ((cfg0.win 6).blk t).view.set ↔ ∀ a : Fin 2, win0_6.index t a * S512x768.size a ≤ (i a).val
      ∧ (i a).val < win0_6.index t a * S512x768.size a + S512x768.size a := by
  show i ∈ ((View.whole main_v4).slice (win0_6.rect t)).set ↔ _
  rw [View.set_slice_whole, Rect.mem_set_unit]
  exact Iff.rfl

/-- Row r of the result lies in the block of point r / 512: the 32 blocks cover the array. -/
theorem covered (i : S16384x768.Idx) :
    ∃ t : Fin cfg0.N, (cfg0.win 6).flush t = true ∧ i ∈ ((cfg0.win 6).blk t).view.set := by
  have hi0 : (i 0).val < 16384 := (i 0).isLt
  have hi1 : (i 1).val < 768 := (i 1).isLt
  obtain ⟨t, ht⟩ : ∃ t : Fin cfg0.N, t.val = (i 0).val / 512 :=
    ⟨⟨(i 0).val / 512, Nat.lt_of_lt_of_eq (by omega : (i 0).val / 512 < 32) N_0.symm⟩, rfl⟩
  obtain ⟨-, -, -, -, -, -, -, -, -, e0, e1⟩ := idx_facts t
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 768 ≤ (i 1).val ∧ (i 1).val < win0_6.index t (1 : Fin 2) * 768 + 768
    omega

/-- THE RESULT ARRAY after the run is `rows`. -/
theorem final (c : Dev nD) : (dats m 0 c).arrAt 6 cfg0.N = rows m c :=
  (dats m 0 c).arrAt_eq_of_cover 6 (rows m c) (fun t _ => flushed_eq m c t) (covered)

end Cert.KernelBlocks

end
-- ==== Proof.KernelResult.lean ====
/-
  The kernel program's result, as the token function of the six arguments.

  Before the region the host slices the first four channels off x and lays the [8, 2048, 4] slice out as [16384, 4]
  in row-major order: row 2048·b + t of the angles is token (b, t)'s four angles (`angles_entry`). It also narrows both
  weight matrices to bf16, which on the extended reals changes nothing (`w1_arr`, `w2_arr`); θ and the biases reach
  the region as launched. After the region the host lays the [16384, 768] result out as [8, 2048, 768], again in
  row-major order: entry (b, t, e) of the program's result is entry (2048·b + t, e) of the region's array, which by
  KernelBlocks.lean is entry e of the token function at row 2048·b + t of the angles (`result_entry`). So the program's
  result is `whole` of its arguments (`result_eq`), and the run ends with it there and the arguments unchanged (`run`).
-/
import proofs.«113039_j65481071399892_1_alg».proof.Proof.KernelBlocks
import Idealize.ShloMosaic.Lib.StableHlo.Run

noncomputable section

open scoped BigOperators

namespace Cert.KernelResult

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.Spec Cert.KernelRow Cert.KernelBlocks

variable (m : (ℓ : Loc nD τ sig) → Buf (Elt Ideal) ℓ) (ρ : Dev nD → PrngReg)

/-! ## The host lines before the region -/

/-- The angles as the region finds them: the slice of x, laid out as [16384, 4]. -/
theorem angles_arr (c : Dev nD) : angArr m c
    = fun i => shapeCast S16384x4 (extractStridedSlice S8x2048x4 ![0, 0, 0]
        (m ((c.tc : Thread nD τ).loc main_arg0) : FVec Ideal S8x2048x768 .f32) slices_S8x2048x768_S8x2048x4_0_0_0)
        shapeCasts_S8x2048x4_S16384x4 i := by
  show StableHlo.after hostOps0 (fun b => m (c, b)) (Proc.devRef .tc main_v1) = _
  after_results
  rfl

/-- Row 2048·b + t of the angles is token (b, t)'s first four channels. -/
theorem angles_entry (c : Dev nD) (r : Fin 16384) (q : Fin 4) (b : Fin 8) (t : Fin 2048)
    (hr : r.val = 2048 * b.val + t.val) :
    angArr m c (ix2 r q) = (m ((c.tc : Thread nD τ).loc main_arg0) : FVec Ideal S8x2048x768 .f32) (ix3 b t (chan q)) := by
  rw [angles_arr]
  show shapeCast S16384x4 _ shapeCasts_S8x2048x4_S16384x4 (ix2 r q) = _
  rw [shapeCast_apply _ shapeCasts_S8x2048x4_S16384x4 (ix2 r q) (ix3 b t q) (by
    rw [Shape.rowMajor_val_two, Shape.rowMajor_val_three]
    show (b.val * 2048 + t.val) * 4 + q.val = r.val * 4 + q.val
    omega)]
  exact extractStridedSlice_apply _ _ _ (ix3 b t q) (ix3 b t (chan q)) (fun a => match a with
    | ⟨0, _⟩ => by show b.val = 0 + b.val; omega
    | ⟨1, _⟩ => by show t.val = 0 + t.val; omega
    | ⟨2, _⟩ => by show q.val = 0 + q.val; omega)

/-- Narrowing the first weight matrix to bf16 leaves it as launched. -/
theorem w1_arr (c : Dev nD) : w1Arr m c = (m ((c.tc : Thread nD τ).loc main_arg2) : FVec Ideal S4x3072 .bf16) := by
  show StableHlo.after hostOps0 (fun b => m (c, b)) (Proc.devRef .tc main_v2) = _
  after_results
  rfl

/-- Narrowing the second weight matrix to bf16 leaves it as launched. -/
theorem w2_arr (c : Dev nD) : w2Arr m c = (m ((c.tc : Thread nD τ).loc main_arg4) : FVec Ideal S3072x768 .bf16) := by
  show StableHlo.after hostOps0 (fun b => m (c, b)) (Proc.devRef .tc main_v3) = _
  after_results
  rfl

/-! ## The host line after the region -/

/-- The program's result buffer after the run: the region's array laid out as [8, 2048, 768]. -/
theorem result_arr (c : Dev nD) :
    (Pipeline.afterTail₀ cfgs (dats m) 0 (V0 m) [hostOps1] c main_v5 : FVec Ideal S8x2048x768 .f32)
      = fun i => shapeCast S8x2048x768 (rows m c) shapeCasts_S16384x768_S8x2048x768 i := by
  unfold Pipeline.afterTail₀
  show StableHlo.after hostOps1 _ (Proc.devRef .tc main_v5) = _
  after_results
  have hw : Pipeline.withArrays (cfgs 0).spec c (V0 m c) (fun w => (dats m 0 c).arrAt w (cfgs 0).N)
      (Proc.devRef .tc main_v4) = rows m c :=
    (Pipeline.withArrays_arr spec0 launch0.win.arr_inj c _ _ 6).trans (final m c)
  rw [hw]
  rfl

/-- Entry (b, t, e) of the program's result is entry e of token (b, t)'s output row. -/
theorem result_entry (c : Dev nD) (b : Fin 8) (t : Fin 2048) (e : Fin 768) :
    (Pipeline.afterTail₀ cfgs (dats m) 0 (V0 m) [hostOps1] c main_v5 : FVec Ideal S8x2048x768 .f32) (ix3 b t e)
      = token (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (angles (m ((c.tc : Thread nD τ).loc main_arg0)) b t) e := by
  -- the row of the region's array that holds token (b, t)
  obtain ⟨r, hr⟩ : ∃ r : Fin 16384, r.val = 2048 * b.val + t.val :=
    ⟨⟨2048 * b.val + t.val, by have := b.isLt; have := t.isLt; omega⟩, rfl⟩
  rw [result_arr]
  show shapeCast S8x2048x768 (rows m c) shapeCasts_S16384x768_S8x2048x768 (ix3 b t e) = _
  rw [shapeCast_apply _ shapeCasts_S16384x768_S8x2048x768 (ix3 b t e) (ix2 r e) (by
    rw [Shape.rowMajor_val_two, Shape.rowMajor_val_three]
    show r.val * 768 + e.val = (b.val * 2048 + t.val) * 768 + e.val
    rw [hr]
    omega)]
  -- that row's angles are the token's, and the other arrays are the arguments
  have ha : rowAngles m c r = angles (m ((c.tc : Thread nD τ).loc main_arg0)) b t :=
    funext fun q => angles_entry m c r q b t hr
  show token (thArr m c) (w1Arr m c) (b1Arr m c) (w2Arr m c) (b2Arr m c) (rowAngles m c r) e = _
  rw [ha, w1_arr, w2_arr, show thArr m c = m ((c.tc : Thread nD τ).loc main_arg1) from V_main_arg1 m c,
    show b1Arr m c = m ((c.tc : Thread nD τ).loc main_arg3) from V_main_arg3 m c,
    show b2Arr m c = m ((c.tc : Thread nD τ).loc main_arg5) from V_main_arg5 m c]

/-- The program's result is the token function at every token of its arguments. -/
theorem result_eq (c : Dev nD) :
    Pipeline.afterTail₀ cfgs (dats m) 0 (V0 m) [hostOps1] c main_v5
      = whole (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext i
  have hi : (i : S8x2048x768.Idx) = ix3 (i 0) (i 1) (i 2) := eq_ix3 i
  rw [hi]
  exact result_entry m c (i 0) (i 1) (i 2)

/-! ## The run -/

/-- Every weakly fair execution of the kernel program terminates with its result at the token function of the
    arguments, and the arguments unchanged: the frame run's post, read. -/
theorem run : θ_run defs (onTc (τ := τ) (main (F := Ideal))) ⟨m, fun _ => 0, ρ⟩ fun r => ∀ c : Dev nD,
      r.2.mem ((c.tc : Thread nD τ).loc main_v5)
        = whole (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c)))⟩)
    (run_main m ρ)

end Cert.KernelResult

end
-- ==== Proof.lean ====
/-
  A feed-forward block with a quantum feature layer: the kernel against its jnp reference, over the extended reals.

  Both programs take x : [8, 2048, 768], four RY angles θ, and the weights and biases of a 4 → 3072 → 768 perceptron.
  Of each token's row of x only the first four channels are used, as RX angles a_0 … a_3; wire q of the circuit measures
  cos a_q · cos θ_q, and the four expectations go through the first layer, a rectifier and the second layer
  (Proof/Spec.lean: `token`, and `whole`, the token function at every token).

  The reference computes this with cosines, two general products contracting the wire axis and the hidden axis, bias
  rows laid out over the tokens and a maximum with zero (Proof/RefSpec.lean reads its stages at a token).

  The kernel lays the tokens out as 16384 rows, narrows the weights to bf16 on the host, and runs a grid of 32 points,
  each computing 512 rows with two matrix-unit products into zero accumulators; the host lays the [16384, 768] result
  back out as [8, 2048, 768]. On the extended reals narrowing to bf16 is the identity, a product into zeros is the plain
  sum over the contracted axis, and both programs' cosine is one function, so the body's stored value at a row is the
  token function of that row's angles (Proof/KernelRow.lean), the 32 row blocks tile the result array
  (Proof/KernelBlocks.lean), and the two row-major layouts send token (b, t) to row 2048·b + t and back
  (Proof/KernelResult.lean). The two sides are the same sums in the same grouping: no law of the extended reals beyond
  that is used, and the precondition (finite inputs) is not needed for the value.

  The ideal pass rewrote nothing, so the kernel's idealization is its own text read over the extended reals.
-/
import proofs.«113039_j65481071399892_1_alg».proof.Defs
import proofs.«113039_j65481071399892_1_alg».proof.Proof.Gen.Kernel
import proofs.«113039_j65481071399892_1_alg».proof.Proof.Gen.Kernel.Skeleton
import proofs.«113039_j65481071399892_1_alg».proof.Proof.Gen.Kernel.Launch
import proofs.«113039_j65481071399892_1_alg».proof.Proof.Gen.Kernel.Points
import proofs.«113039_j65481071399892_1_alg».proof.Proof.Gen.Kernel.Frame
import proofs.«113039_j65481071399892_1_alg».proof.Proof.Gen.KernelIdeal
import proofs.«113039_j65481071399892_1_alg».proof.Proof.Gen.KernelIdeal.Skeleton
import proofs.«113039_j65481071399892_1_alg».proof.Proof.Gen.KernelIdeal.Launch
import proofs.«113039_j65481071399892_1_alg».proof.Proof.Gen.KernelIdeal.Points
import proofs.«113039_j65481071399892_1_alg».proof.Proof.Gen.KernelIdeal.Frame
import proofs.«113039_j65481071399892_1_alg».proof.Proof.Gen.ReferenceIdeal
import proofs.«113039_j65481071399892_1_alg».proof.Proof.Gen.ReferenceIdeal.Run
import proofs.«113039_j65481071399892_1_alg».proof.Proof.Gen.ReferenceIdeal.Read
import proofs.«113039_j65481071399892_1_alg».proof.Proof.Gen.Pre_finite_inputs
import proofs.«113039_j65481071399892_1_alg».proof.Proof.RefSpec
import proofs.«113039_j65481071399892_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the six arguments, both programs end with the token function of the arguments at
    every token: the kernel by its blocks and the two layouts, the reference by its stages. -/
theorem algebraic : Cert.algebraic_KernelIdeal_ReferenceIdeal := by
  intro m ρ m' ρ' _ hagree
  refine ⟨fun c => Cert.Spec.whole
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelResult.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v14_eq _ _ _ _ _ _).trans ?_
  rw [Cert.RefSpec.reference_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
